-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S512x256x256 : Shape := ⟨3, ![512, 256, 256]⟩
abbrev S8x256x256 : Shape := ⟨3, ![8, 256, 256]⟩
abbrev S8x1x256 : Shape := ⟨3, ![8, 1, 256]⟩
abbrev S8x257x256 : Shape := ⟨3, ![8, 257, 256]⟩
abbrev S8x257x1 : Shape := ⟨3, ![8, 257, 1]⟩
abbrev S8x257x257 : Shape := ⟨3, ![8, 257, 257]⟩

abbrev nBuf : Space → Nat
  | .hbm => 4
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S512x256x256, .f32⟩
  | .hbm, ⟨2, _⟩ => ⟨S512x256x256, .f32⟩
  | .hbm, ⟨3, _⟩ => ⟨S8x64x256x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x64x256x256_S512x256x256 : S8x64x256x256.ShapeCasts S512x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  slices_S8x256x256_o0_254_0_S8x1x256 : S8x256x256.Slices ![0, 254, 0] S8x1x256
  concatenates_S8x256x256_S8x1x256_S8x257x256_d1 : Shape.Concatenates [S8x256x256, S8x1x256] S8x257x256 1
  slices_S8x257x256_o0_0_254_S8x257x1 : S8x257x256.Slices ![0, 0, 254] S8x257x1
  concatenates_S8x257x256_S8x257x1_S8x257x257_d2 : Shape.Concatenates [S8x257x256, S8x257x1] S8x257x257 2
  slices_S8x257x257_o0_0_0_S8x256x256 : S8x257x257.Slices ![0, 0, 0] S8x256x256
  slices_S8x257x257_o0_0_1_S8x256x256 : S8x257x257.Slices ![0, 0, 1] S8x256x256
  slices_S8x257x257_o0_1_0_S8x256x256 : S8x257x257.Slices ![0, 1, 0] S8x256x256
  slices_S8x257x257_o0_1_1_S8x256x256 : S8x257x257.Slices ![0, 1, 1] S8x256x256
  shapeCasts_S512x256x256_S8x64x256x256 : S512x256x256.ShapeCasts S8x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S512x256x256.size a
  hwx0_0 : ∀ i : grid0.Coords, EltTy.bits .f32 = 32 ∨ (Rect.block (s := S512x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S512x256x256.size a
  hwx0_1 : ∀ i : grid0.Coords, EltTy.bits .f32 = 32 ∨ (Rect.block (s := S512x256x256) S8x256x256.size (cc0_transform_1 i) (hinb0_1 i)).WholeWords (EltTy.packing .f32)

variable [Facts₀]

abbrev win0_0 : Pipeline.Window sig grid0 :=
  Pipeline.Window.ofSpec (Memref.whole main_v0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S_ : Shape := ⟨0, ![]⟩
abbrev S8x64x1x256 : Shape := ⟨4, ![8, 64, 1, 256]⟩
abbrev S8x64x257x256 : Shape := ⟨4, ![8, 64, 257, 256]⟩
abbrev S8x64x257x1 : Shape := ⟨4, ![8, 64, 257, 1]⟩
abbrev S8x64x257x257 : Shape := ⟨4, ![8, 64, 257, 257]⟩

abbrev nBuf : Space → Nat
  | .hbm => 40
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S_, .i32⟩
  | .hbm, ⟨2, _⟩ => ⟨S8x64x1x256, .f32⟩
  | .hbm, ⟨3, _⟩ => ⟨S8x64x1x256, .f32⟩
  | .hbm, ⟨4, _⟩ => ⟨S8x64x1x256, .f32⟩
  | .hbm, ⟨5, _⟩ => ⟨S8x64x1x256, .f32⟩
  | .hbm, ⟨6, _⟩ => ⟨S8x64x257x256, .f32⟩
  | .hbm, ⟨7, _⟩ => ⟨S8x64x257x1, .f32⟩
  | .hbm, ⟨8, _⟩ => ⟨S8x64x257x1, .f32⟩
  | .hbm, ⟨9, _⟩ => ⟨S8x64x257x1, .f32⟩
  | .hbm, ⟨10, _⟩ => ⟨S8x64x257x1, .f32⟩
  | .hbm, ⟨11, _⟩ => ⟨S8x64x257x257, .f32⟩
  | .hbm, ⟨12, _⟩ => ⟨S8x64x256x256, .f32⟩
  | .hbm, ⟨13, _⟩ => ⟨S8x64x256x256, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S_, .f32⟩
  | .hbm, ⟨20, _⟩ => ⟨S8x64x256x256, .f32⟩
  | .hbm, ⟨21, _⟩ => ⟨S8x64x256x256, .f32⟩
  | .hbm, ⟨22, _⟩ => ⟨S8x64x256x256, .f32⟩
  | .hbm, ⟨23, _⟩ => ⟨S8x64x256x256, .f32⟩
  | .hbm, ⟨24, _⟩ => ⟨S8x64x256x256, .f32⟩
  | .hbm, ⟨25, _⟩ => ⟨S_, .f32⟩
  | .hbm, ⟨26, _⟩ => ⟨S8x64x256x256, .f32⟩
  | .hbm, ⟨27, _⟩ => ⟨S8x64x256x256, .f32⟩
  | .hbm, ⟨28, _⟩ => ⟨S8x64x256x256, .f32⟩
  | .hbm, ⟨29, _⟩ => ⟨S8x64x256x256, .f32⟩
  | .hbm, ⟨30, _⟩ => ⟨S8x64x256x256, .f32⟩
  | .hbm, ⟨31, _⟩ => ⟨S_, .f32⟩
  | .hbm, ⟨32, _⟩ => ⟨S8x64x256x256, .f32⟩
  | .hbm, ⟨33, _⟩ => ⟨S8x64x256x256, .f32⟩
  | .hbm, ⟨34, _⟩ => ⟨S8x64x256x256, .f32⟩
  | .hbm, ⟨35, _⟩ => ⟨S8x64x256x256, .f32⟩
  | .hbm, ⟨36, _⟩ => ⟨S8x64x256x256, .f32⟩
  | .hbm, ⟨37, _⟩ => ⟨S8x64x256x256, .f32⟩
  | .hbm, ⟨38, _⟩ => ⟨S8x64x256x256, .f32⟩
  | .hbm, ⟨39, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  slices_S8x64x256x256_S8x64x1x256_0_0_0_0 : S8x64x256x256.Slices ![0, 0, 0, 0] S8x64x1x256
  slices_S8x64x256x256_S8x64x1x256_0_0_255_0 : S8x64x256x256.Slices ![0, 0, 255, 0] S8x64x1x256
  slices_S8x64x256x256_S8x64x1x256_0_0_254_0 : S8x64x256x256.Slices ![0, 0, 254, 0] S8x64x1x256
  concatenates_S8x64x256x256_S8x64x1x256_S8x64x257x256_d2 : Shape.Concatenates [S8x64x256x256, S8x64x1x256] S8x64x257x256 2
  slices_S8x64x257x256_S8x64x257x1_0_0_0_0 : S8x64x257x256.Slices ![0, 0, 0, 0] S8x64x257x1
  slices_S8x64x257x256_S8x64x257x1_0_0_0_255 : S8x64x257x256.Slices ![0, 0, 0, 255] S8x64x257x1
  slices_S8x64x257x256_S8x64x257x1_0_0_0_254 : S8x64x257x256.Slices ![0, 0, 0, 254] S8x64x257x1
  concatenates_S8x64x257x256_S8x64x257x1_S8x64x257x257_d3 : Shape.Concatenates [S8x64x257x256, S8x64x257x1] S8x64x257x257 3
  slices_S8x64x257x257_S8x64x256x256_0_0_0_0 : S8x64x257x257.Slices ![0, 0, 0, 0] S8x64x256x256
  slices_S8x64x257x257_S8x64x256x256_0_0_0_1 : S8x64x257x257.Slices ![0, 0, 0, 1] S8x64x256x256
  slices_S8x64x257x257_S8x64x256x256_0_0_1_0 : S8x64x257x257.Slices ![0, 0, 1, 0] S8x64x256x256
  slices_S8x64x257x257_S8x64x256x256_0_0_1_1 : S8x64x257x257.Slices ![0, 0, 1, 1] S8x64x256x256
  bcast_S_S8x64x256x256 : S_.BroadcastsInDim S8x64x256x256 (![] : Fin 0 → Fin S8x64x256x256.rank)

variable [Facts₀]

class Facts : Prop extends Facts₀ where

variable [Facts]
-- ==== Proof.Spec.lean ====
/-
  The mathematics both programs compute, stated once. On each 256 x 256 plane of the input, with the plane continued
  one step past its last row and its last column by reflection (position 256 reads position 254), the four neighbours
  a = x[h, w], b = x[h, w+1], c = x[h+1, w], d = x[h+1, w+1] give the three half-sums
      hl = (a + b - c - d) / 2,   lh = (a - b + c - d) / 2,   hh = (a - b - c + d) / 2,
  and the result is sqrt(hl^2 + lh^2 + hh^2). Here: the reflected successor of a position, the scalar formula on the
  extended reals, the result as ONE function `G` of the input array, and how an array padded by its second-to-last
  row and column (as either program builds it: a slice laid behind the array along the axis) reads at an index.
  Both programs perform the same additions, subtractions and products in the same order, so no law of arithmetic is
  needed to join them and the inputs' finiteness is never used.
-/
import Idealize.ShloMosaic.PureOps.Ideal
import Idealize.ShloMosaic.Lib.ValueIdx
import Idealize.ShloMosaic.Lib.Pipeline.Value

noncomputable section

namespace Cert.Haar

open Idealize.ShloMosaic Idealize.ShloMosaic.ValueIdx

/-! ## Positions -/

/-- Position `k` of an axis of 256 entries continued by one reflected entry: itself below 256, and 254 at 256. -/
def fold (k : Fin 257) : Fin 256 := if h : k.val < 256 then ⟨k.val, h⟩ else ⟨254, by decide⟩

/-- The next position along the axis, reflected at the end: `k + 1`, and 254 after 255. -/
def nxt (k : Fin 256) : Fin 256 := fold k.succ

theorem fold_lt (k : Fin 257) (h : k.val < 256) : fold k = ⟨k.val, h⟩ := dif_pos h
theorem fold_last (k : Fin 257) (h : ¬ k.val < 256) : fold k = ⟨254, by decide⟩ := dif_neg h
theorem fold_castSucc (k : Fin 256) : fold k.castSucc = k := fold_lt _ k.isLt

/-! ## The scalar formula -/

/-- One half, as the 32-bit float literal both programs carry. -/
def half : Ideal .f32 := FloatOps.ofBits (F := Ideal) .f32 0x3F000000#32

/-- The edge magnitude of four neighbours, the operations in the order both programs perform them. -/
def edge (a b c d : Ideal .f32) : Ideal .f32 :=
  Ideal.sqrt (half * (a + b - c - d) * (half * (a + b - c - d)) + half * (a - b + c - d) * (half * (a - b + c - d))
    + half * (a - b - c + d) * (half * (a - b - c + d)))

/-! ## The result, as one function of the input array -/

abbrev X4 : Shape := ⟨4, ![8, 64, 256, 256]⟩

/-- The result at batch `b`, channel `c`, row `h`, column `w`: the edge magnitude of the plane's entries at
    `(h, w)`, `(h, w+1)`, `(h+1, w)`, `(h+1, w+1)`, the successors reflected at the plane's end. -/
def G (x : X4.Idx → Ideal .f32) : X4.Idx → Ideal .f32 := fun i =>
  let b : Fin 8 := i 0; let c : Fin 64 := i 1; let h : Fin 256 := i 2; let w : Fin 256 := i 3
  edge (x (ix4 b c h w)) (x (ix4 b c h (nxt w))) (x (ix4 b c (nxt h) w)) (x (ix4 b c (nxt h) (nxt w)))

theorem G_apply (x : X4.Idx → Ideal .f32) (b : Fin 8) (c : Fin 64) (h w : Fin 256) :
    G x (ix4 b c h w) = edge (x (ix4 b c h w)) (x (ix4 b c h (nxt w))) (x (ix4 b c (nxt h) w)) (x (ix4 b c (nxt h) (nxt w))) := rfl

/-! ## The same function on the array with batch and channel merged into one axis of 512 planes -/

abbrev F3 : Shape := ⟨3, ![512, 256, 256]⟩

/-- The result on the flattened array: plane `n`, row `h`, column `w`. A plane's neighbours are in the same plane, so
    this is `G` with the two leading axes merged. -/
def G3 (xf : F3.Idx → Ideal .f32) : F3.Idx → Ideal .f32 := fun i =>
  let n : Fin 512 := i 0; let h : Fin 256 := i 1; let w : Fin 256 := i 2
  edge (xf (ix3 n h w)) (xf (ix3 n h (nxt w))) (xf (ix3 n (nxt h) w)) (xf (ix3 n (nxt h) (nxt w)))

theorem G3_apply (xf : F3.Idx → Ideal .f32) (n : Fin 512) (h w : Fin 256) :
    G3 xf (ix3 n h w) = edge (xf (ix3 n h w)) (xf (ix3 n h (nxt w))) (xf (ix3 n (nxt h) w)) (xf (ix3 n (nxt h) (nxt w))) := rfl

/-- Plane `64 b + c` of the flattened array is plane `(b, c)` of the array: the two have one row-major position. -/
theorem flat_apply {α : Type} (x : X4.Idx → α) (h1 : X4.ShapeCasts F3) (b : Fin 8) (c : Fin 64) (h w : Fin 256) :
    shapeCast F3 x h1 (ix3 ⟨64 * b.val + c.val, by have := b.isLt; have := c.isLt; omega⟩ h w) = x (ix4 b c h w) := by
  refine shapeCast_apply x h1 _ _ ?_
  rw [Shape.rowMajor_val_four, Shape.rowMajor_val_three]
  show ((b.val * 64 + c.val) * 256 + h.val) * 256 + w.val = ((64 * b.val + c.val) * 256 + h.val) * 256 + w.val
  omega

/-- Flatten, apply `G3`, restore the four axes: that is `G`. -/
theorem reshape_G (x : X4.Idx → Ideal .f32) (h1 : X4.ShapeCasts F3) (h2 : F3.ShapeCasts X4) :
    shapeCast X4 (G3 (shapeCast F3 x h1)) h2 = G x := by
  funext i
  obtain ⟨b, c, h, w, rfl⟩ : ∃ (b : Fin 8) (c : Fin 64) (h w : Fin 256), i = ix4 b c h w := ⟨i 0, i 1, i 2, i 3, eq_ix4 i⟩
  have hk : (F3.rowMajor (ix3 (⟨64 * b.val + c.val, by have := b.isLt; have := c.isLt; omega⟩ : Fin 512) h w)).val
      = (X4.rowMajor (ix4 b c h w)).val := by
    rw [Shape.rowMajor_val_four, Shape.rowMajor_val_three]
    show ((64 * b.val + c.val) * 256 + h.val) * 256 + w.val = ((b.val * 64 + c.val) * 256 + h.val) * 256 + w.val
    omega
  rw [shapeCast_apply _ h2 (ix4 b c h w) _ hk, G3_apply, G_apply, flat_apply, flat_apply, flat_apply, flat_apply]

/-! ## A padded block of eight planes read at an index (rank 3) -/

section Rank3
variable {α : Type}

abbrev B3 : Shape := ⟨3, ![8, 256, 256]⟩
abbrev Row3 : Shape := ⟨3, ![8, 1, 256]⟩
abbrev BR3 : Shape := ⟨3, ![8, 257, 256]⟩
abbrev Col3 : Shape := ⟨3, ![8, 257, 1]⟩
abbrev P3 : Shape := ⟨3, ![8, 257, 257]⟩

/-- The block with row 254 laid below row 255 reads, at row `h` of 257, the block at the folded row. -/
theorem padRows3_apply (v : B3.Idx → α) (hs : B3.Slices ![0, 254, 0] Row3) (hc : Shape.Concatenates [B3, Row3] BR3 1)
    (p : Fin 8) (h : Fin 257) (w : Fin 256) :
    concatenate BR3 1 [⟨B3, v⟩, ⟨Row3, extractStridedSlice Row3 ![0, 254, 0] v hs⟩] hc (ix3 p h w) = v (ix3 p (fold h) w) := by
  by_cases hh : h.val < 256
  · rw [fold_lt h hh]
    exact concatenate_pair_apply_left 1 v _ hc (ix3 p h w) rfl (ix3 p ⟨h.val, hh⟩ w) (fun b => by fin_cases b <;> rfl)
  · rw [fold_last h hh]
    have h256 : h.val = 256 := by have := h.isLt; omega
    refine (concatenate_pair_apply_right 1 v _ hc (ix3 p h w) rfl rfl (ix3 p (0 : Fin 1) w) ?_ ?_).trans ?_
    · intro b hb
      fin_cases b
      · rfl
      · exact absurd rfl hb
      · rfl
    · show 0 + 256 = h.val
      omega
    · exact extractStridedSlice_apply _ v hs (ix3 p (0 : Fin 1) w) (ix3 p ⟨254, by decide⟩ w) (fun a => by fin_cases a <;> first | rfl | exact (Nat.zero_add _).symm)

/-- That array with column 254 laid to the right of column 255 reads, at column `w` of 257, the array at the folded column. -/
theorem padCols3_apply (y : BR3.Idx → α) (hs : BR3.Slices ![0, 0, 254] Col3) (hc : Shape.Concatenates [BR3, Col3] P3 2)
    (p : Fin 8) (h : Fin 257) (w : Fin 257) :
    concatenate P3 2 [⟨BR3, y⟩, ⟨Col3, extractStridedSlice Col3 ![0, 0, 254] y hs⟩] hc (ix3 p h w) = y (ix3 p h (fold w)) := by
  by_cases hw : w.val < 256
  · rw [fold_lt w hw]
    exact concatenate_pair_apply_left 2 y _ hc (ix3 p h w) rfl (ix3 p h ⟨w.val, hw⟩) (fun b => by fin_cases b <;> rfl)
  · rw [fold_last w hw]
    have w256 : w.val = 256 := by have := w.isLt; omega
    refine (concatenate_pair_apply_right 2 y _ hc (ix3 p h w) rfl rfl (ix3 p h (0 : Fin 1)) ?_ ?_).trans ?_
    · intro b hb
      fin_cases b
      · rfl
      · rfl
      · exact absurd rfl hb
    · show 0 + 256 = w.val
      omega
    · exact extractStridedSlice_apply _ y hs (ix3 p h (0 : Fin 1)) (ix3 p h ⟨254, by decide⟩) (fun a => by fin_cases a <;> first | rfl | exact (Nat.zero_add _).symm)

end Rank3

/-! ## The whole array padded, read at an index (rank 4) -/

section Rank4
variable {α : Type}

abbrev Row4 : Shape := ⟨4, ![8, 64, 1, 256]⟩
abbrev XR4 : Shape := ⟨4, ![8, 64, 257, 256]⟩
abbrev Col4 : Shape := ⟨4, ![8, 64, 257, 1]⟩
abbrev P4 : Shape := ⟨4, ![8, 64, 257, 257]⟩

/-- Reversing an array along an axis of extent one changes nothing (the row axis of a one-row slice). -/
theorem reverse_row4 (y : Row4.Idx → α) : Host.reverse [2] y = y := by
  funext j
  unfold Host.reverse
  refine congrArg y (funext fun a => ?_)
  fin_cases a
  · exact if_neg (by decide)
  · exact if_neg (by decide)
  · refine (if_pos (by decide)).trans (Fin.ext ?_)
    have hj : (j 2).val < 1 := (j 2).isLt
    show 1 - ((j 2).val + 1) = (j 2).val
    omega
  · exact if_neg (by decide)

/-- The same of the column axis of a one-column slice. -/
theorem reverse_col4 (y : Col4.Idx → α) : Host.reverse [3] y = y := by
  funext j
  unfold Host.reverse
  refine congrArg y (funext fun a => ?_)
  fin_cases a
  · exact if_neg (by decide)
  · exact if_neg (by decide)
  · exact if_neg (by decide)
  · refine (if_pos (by decide)).trans (Fin.ext ?_)
    have hj : (j 3).val < 1 := (j 3).isLt
    show 1 - ((j 3).val + 1) = (j 3).val
    omega

/-- The array with row 254 of every plane (reversed along its one row) laid below row 255: at row `h` of 257 it reads
    the array at the folded row. -/
theorem padRows4_apply (x : X4.Idx → α) (hs : X4.Slices ![0, 0, 254, 0] Row4) (hc : Shape.Concatenates [X4, Row4] XR4 2)
    (b : Fin 8) (c : Fin 64) (h : Fin 257) (w : Fin 256) :
    concatenate XR4 2 [⟨X4, x⟩, ⟨Row4, Host.reverse [2] (extractStridedSlice Row4 ![0, 0, 254, 0] x hs)⟩] hc (ix4 b c h w)
      = x (ix4 b c (fold h) w) := by
  rw [reverse_row4]
  by_cases hh : h.val < 256
  · rw [fold_lt h hh]
    exact concatenate_pair_apply_left 2 x _ hc (ix4 b c h w) rfl (ix4 b c ⟨h.val, hh⟩ w) (fun a => by fin_cases a <;> rfl)
  · rw [fold_last h hh]
    have h256 : h.val = 256 := by have := h.isLt; omega
    refine (concatenate_pair_apply_right 2 x _ hc (ix4 b c h w) rfl rfl (ix4 b c (0 : Fin 1) w) ?_ ?_).trans ?_
    · intro a ha
      fin_cases a
      · rfl
      · rfl
      · exact absurd rfl ha
      · rfl
    · show 0 + 256 = h.val
      omega
    · exact extractStridedSlice_apply _ x hs (ix4 b c (0 : Fin 1) w) (ix4 b c ⟨254, by decide⟩ w) (fun a => by fin_cases a <;> first | rfl | exact (Nat.zero_add _).symm)

/-- That array with column 254 (reversed along its one column) laid to the right of column 255: at column `w` of 257
    it reads the array at the folded column. -/
theorem padCols4_apply (y : XR4.Idx → α) (hs : XR4.Slices ![0, 0, 0, 254] Col4) (hc : Shape.Concatenates [XR4, Col4] P4 3)
    (b : Fin 8) (c : Fin 64) (h : Fin 257) (w : Fin 257) :
    concatenate P4 3 [⟨XR4, y⟩, ⟨Col4, Host.reverse [3] (extractStridedSlice Col4 ![0, 0, 0, 254] y hs)⟩] hc (ix4 b c h w)
      = y (ix4 b c h (fold w)) := by
  rw [reverse_col4]
  by_cases hw : w.val < 256
  · rw [fold_lt w hw]
    exact concatenate_pair_apply_left 3 y _ hc (ix4 b c h w) rfl (ix4 b c h ⟨w.val, hw⟩) (fun a => by fin_cases a <;> rfl)
  · rw [fold_last w hw]
    have w256 : w.val = 256 := by have := w.isLt; omega
    refine (concatenate_pair_apply_right 3 y _ hc (ix4 b c h w) rfl rfl (ix4 b c h (0 : Fin 1)) ?_ ?_).trans ?_
    · intro a ha
      fin_cases a
      · rfl
      · rfl
      · rfl
      · exact absurd rfl ha
    · show 0 + 256 = w.val
      omega
    · exact extractStridedSlice_apply _ y hs (ix4 b c h (0 : Fin 1)) (ix4 b c h ⟨254, by decide⟩) (fun a => by fin_cases a <;> first | rfl | exact (Nat.zero_add _).symm)

end Rank4

end Cert.Haar

end
-- ==== Proof.KernelValue.lean ====
/-
  What the kernel's program leaves in its result. The region works on the input with batch and channel merged (512
  planes), eight planes to a grid point, sixty-four points. At a point the body pads its block of eight planes by the
  second-to-last row and column and combines the four shifted windows; read at plane `p`, row `h`, column `w` of the
  block that is the edge magnitude of the plane's entries at `(h, w)`, `(h, w+1)`, `(h+1, w)`, `(h+1, w+1)`, successors
  reflected — every neighbour inside the same block, since a block holds whole planes. Block `t` is planes `8t … 8t+7`
  of the flattened input, so point `t` writes back block `t` of `G3` of the flattened input; the sixty-four blocks cover
  the array, which therefore ends at `G3`; and the reshape after the region restores the four axes: the result is `G`.
-/
import proofs.«126351_j23579370455122_1_alg».proof.Proof.Gen.KernelIdeal.Frame
import proofs.«126351_j23579370455122_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HaarValue

open Cert.KernelIdeal Cert.KernelIdeal.Gen Cert.Haar

/-! ## The body's payload -/

section Payload
variable {F : FTy → Type} [FloatOps F]

/-- The block of eight planes with row 254 repeated below and then column 254 repeated on the right. -/
def padBlock (v0 : Vec F S8x256x256 .f32) : FVec F S8x257x257 .f32 :=
  have v1 : FVec F S8x256x256 .f32 := shapeCast S8x256x256 v0 shapeCasts_S8x256x256_S8x256x256
  have v2 : FVec F S8x1x256 .f32 := extractStridedSlice S8x1x256 ![0, 254, 0] v1 slices_S8x256x256_o0_254_0_S8x1x256
  have v3 : FVec F S8x257x256 .f32 := concatenate S8x257x256 1 [⟨S8x256x256, v1⟩, ⟨S8x1x256, v2⟩] concatenates_S8x256x256_S8x1x256_S8x257x256_d1
  have v4 : FVec F S8x257x1 .f32 := extractStridedSlice S8x257x1 ![0, 0, 254] v3 slices_S8x257x256_o0_0_254_S8x257x1
  concatenate S8x257x257 2 [⟨S8x257x256, v3⟩, ⟨S8x257x1, v4⟩] concatenates_S8x257x256_S8x257x1_S8x257x257_d2

/-- The four shifted windows of a padded block combined: the three half-sums squared, added, the root. -/
def stencilBlock (v5 : FVec F S8x257x257 .f32) : FVec F S8x256x256 .f32 :=
  have v6 : FVec F S8x256x256 .f32 := extractStridedSlice S8x256x256 ![0, 0, 0] v5 slices_S8x257x257_o0_0_0_S8x256x256
  have v7 : FVec F S8x256x256 .f32 := extractStridedSlice S8x256x256 ![0, 0, 1] v5 slices_S8x257x257_o0_0_1_S8x256x256
  have v8 : FVec F S8x256x256 .f32 := extractStridedSlice S8x256x256 ![0, 1, 0] v5 slices_S8x257x257_o0_1_0_S8x256x256
  have v9 : FVec F S8x256x256 .f32 := extractStridedSlice S8x256x256 ![0, 1, 1] v5 slices_S8x257x257_o0_1_1_S8x256x256
  have v14 : FVec F S8x256x256 .f32 := mulf (broadcast S8x256x256 (Scalar.ofBits .f32 0x3F000000#32)) (subf (subf (addf v6 v7) v8) v9)
  have v19 : FVec F S8x256x256 .f32 := mulf (broadcast S8x256x256 (Scalar.ofBits .f32 0x3F000000#32)) (subf (addf (subf v6 v7) v8) v9)
  have v24 : FVec F S8x256x256 .f32 := mulf (broadcast S8x256x256 (Scalar.ofBits .f32 0x3F000000#32)) (addf (subf (subf v6 v7) v8) v9)
  sqrt (addf (addf (mulf v14 v14) (mulf v19 v19)) (mulf v24 v24))

/-- The printed payload is the stencil of the padded block. -/
theorem pay_eq (v0 : Vec F S8x256x256 .f32) : k0_pay1 v0 = stencilBlock (padBlock v0) := rfl

end Payload

/-- The padded block at row `h`, column `w` of 257 reads the block at the folded row and column. -/
theorem padBlock_apply (v0 : Vec Ideal S8x256x256 .f32) (p : Fin 8) (h w : Fin 257) :
    padBlock v0 (ix3 p h w) = v0 (ix3 p (fold h) (fold w)) := by
  unfold padBlock
  refine (padCols3_apply _ _ _ p h w).trans ?_
  refine (padRows3_apply _ _ _ p h (fold w)).trans ?_
  rw [shapeCast_self]

/-- The stencil at an index, over its four windows. -/
theorem stencilBlock_windows (xp : FVec Ideal S8x257x257 .f32) (i : S8x256x256.Idx) :
    stencilBlock xp i = edge (extractStridedSlice S8x256x256 ![0, 0, 0] xp slices_S8x257x257_o0_0_0_S8x256x256 i)
      (extractStridedSlice S8x256x256 ![0, 0, 1] xp slices_S8x257x257_o0_0_1_S8x256x256 i)
      (extractStridedSlice S8x256x256 ![0, 1, 0] xp slices_S8x257x257_o0_1_0_S8x256x256 i)
      (extractStridedSlice S8x256x256 ![0, 1, 1] xp slices_S8x257x257_o0_1_1_S8x256x256 i) := rfl

/-- The stencil at plane `p`, row `h`, column `w`: the padded block at the four neighbouring positions. -/
theorem stencilBlock_apply (xp : FVec Ideal S8x257x257 .f32) (p : Fin 8) (h w : Fin 256) :
    stencilBlock xp (ix3 p h w) = edge (xp (ix3 p h.castSucc w.castSucc)) (xp (ix3 p h.castSucc w.succ))
      (xp (ix3 p h.succ w.castSucc)) (xp (ix3 p h.succ w.succ)) := by
  rw [stencilBlock_windows,
    extractStridedSlice_apply ![0, 0, 0] xp _ (ix3 p h w) (ix3 p h.castSucc w.castSucc)
      (fun a => by fin_cases a <;> first | rfl | exact (Nat.zero_add _).symm | exact Nat.add_comm _ 1),
    extractStridedSlice_apply ![0, 0, 1] xp _ (ix3 p h w) (ix3 p h.castSucc w.succ)
      (fun a => by fin_cases a <;> first | rfl | exact (Nat.zero_add _).symm | exact Nat.add_comm _ 1),
    extractStridedSlice_apply ![0, 1, 0] xp _ (ix3 p h w) (ix3 p h.succ w.castSucc)
      (fun a => by fin_cases a <;> first | rfl | exact (Nat.zero_add _).symm | exact Nat.add_comm _ 1),
    extractStridedSlice_apply ![0, 1, 1] xp _ (ix3 p h w) (ix3 p h.succ w.succ)
      (fun a => by fin_cases a <;> first | rfl | exact (Nat.zero_add _).symm | exact Nat.add_comm _ 1)]

/-- The payload at plane `p`, row `h`, column `w` of the block: the edge magnitude of the block's own entries. -/
theorem pay_apply (v0 : Vec Ideal S8x256x256 .f32) (p : Fin 8) (h w : Fin 256) :
    k0_pay1 v0 (ix3 p h w)
      = edge (v0 (ix3 p h w)) (v0 (ix3 p h (nxt w))) (v0 (ix3 p (nxt h) w)) (v0 (ix3 p (nxt h) (nxt w))) := by
  rw [pay_eq, stencilBlock_apply, padBlock_apply, padBlock_apply, padBlock_apply, padBlock_apply, fold_castSucc, fold_castSucc]
  rfl

/-- A point's payload against `G3`: if the block is planes `8T … 8T+7` of `xf`, its payload is block `T` of `G3 xf`. -/
theorem point_eq (xblk : Vec Ideal S8x256x256 .f32) (xf : S512x256x256.Idx → Ideal .f32) (T : Nat) (hT : T < 64)
    (hblk : ∀ (p : Fin 8) (h w : Fin 256), xblk (ix3 p h w) = xf (ix3 (⟨8 * T + p.val, by have := p.isLt; omega⟩ : Fin 512) h w))
    (p : Fin 8) (h w : Fin 256) :
    k0_pay1 xblk (ix3 p h w) = G3 xf (ix3 (⟨8 * T + p.val, by have := p.isLt; omega⟩ : Fin 512) h w) := by
  rw [pay_apply, hblk, hblk, hblk, hblk, G3_apply]

/-! ## From blocks to the array -/

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps over the grid: both windows are at block `t` of the plane axis and block 0 of the others. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem t_lt (t : Fin cfg0.N) : t.val < 64 := Nat.lt_of_lt_of_eq t.isLt (show cfg0.N = 64 from N_0)

/-- The input window's block at point `t` is planes `8t … 8t+7` of the flattened input as the region finds it. -/
theorem iblk_apply (c : Dev nD) (t : Fin cfg0.N) (p : Fin 8) (h w : Fin 256) :
    (iblk m c 0 t : Vec Ideal S8x256x256 .f32) (ix3 p h w)
      = (V m c main_v0 : S512x256x256.Idx → Ideal .f32) (ix3 (⟨8 * t.val + p.val, by have := p.isLt; have := t_lt t; omega⟩ : Fin 512) h w) := by
  obtain ⟨e0, e1, e2, -, -, -⟩ := idx_facts t
  unfold iblk
  rw [View.read_apply]
  show V m c main_v0 _ = V m c main_v0 _
  congr 1
  funext a
  apply Fin.ext
  match a with
  | ⟨0, _⟩ => show win0_0.index t (0 : Fin 3) * 8 + 1 * p.val = 8 * t.val + p.val; rw [e0]; omega
  | ⟨1, _⟩ => show win0_0.index t (1 : Fin 3) * 256 + 1 * h.val = h.val; rw [e1]; omega
  | ⟨2, _⟩ => show win0_0.index t (2 : Fin 3) * 256 + 1 * w.val = w.val; rw [e2]; omega

/-- What point `t` writes back is block `t` of `G3` of the flattened input. -/
theorem flushed_eq (c : Dev nD) (t : Fin cfg0.N) :
    (dats m 0 c).flushed 1 t = ((cfg0.win 1).blk t).view.read (Elt Ideal) (G3 (V m c main_v0)) := by
  show (cfg0.win 1).cut (grid0.coords t) ((dats m 0 c).after 1 t) = _
  rw [after0_1]
  unfold out0_1
  rw [View.canon_unit_zero hz]
  simp only [View.ld_unit_zero (S := S8x256x256) hz]
  obtain ⟨-, -, -, e3, e4, e5⟩ := idx_facts t
  funext j
  show k0_pay1 (iblk m c 0 t) j = G3 (V m c main_v0) (((cfg0.win 1).blk t).view.emb j)
  have hj : (j : S8x256x256.Idx) = ix3 (j 0) (j 1) (j 2) := eq_ix3 j
  refine (congrArg (k0_pay1 (iblk m c 0 t : Vec Ideal S8x256x256 .f32)) hj).trans ?_
  refine (point_eq (iblk m c 0 t) (V m c main_v0) t.val (t_lt t) (iblk_apply m c t) (j 0) (j 1) (j 2)).trans ?_
  refine congrArg (G3 (V m c main_v0)) ?_
  funext a
  apply Fin.ext
  match a with
  | ⟨0, _⟩ => show 8 * t.val + (j 0).val = win0_1.index t (0 : Fin 3) * 8 + 1 * (j 0).val; rw [e3]; omega
  | ⟨1, _⟩ => show (j 1).val = win0_1.index t (1 : Fin 3) * 256 + 1 * (j 1).val; rw [e4]; omega
  | ⟨2, _⟩ => show (j 2).val = win0_1.index t (2 : Fin 3) * 256 + 1 * (j 2).val; rw [e5]; omega

/-- An index of the output array is in point `t`'s block iff each coordinate is in the block's range on its axis. -/
theorem mem_blk (t : Fin cfg0.N) (i : S512x256x256.Idx) :
    i ∈ ((cfg0.win 1).blk t).view.set ↔ ∀ a : Fin 3, win0_1.index t a * S8x256x256.size a ≤ (i a).val
      ∧ (i a).val < win0_1.index t a * S8x256x256.size a + S8x256x256.size a := by
  show i ∈ ((View.whole main_v1).slice (win0_1.rect t)).set ↔ _
  rw [View.set_slice_whole, Rect.mem_set_unit]
  exact Iff.rfl

/-- Every index of the output array is in the block of the point its plane falls in: plane `n` is in block `n / 8`. -/
theorem cover (i : S512x256x256.Idx) :
    ∃ t : Fin cfg0.N, (cfg0.win 1).flush t = true ∧ i ∈ ((cfg0.win 1).blk t).view.set := by
  have hi0 : (i 0).val < 512 := (i 0).isLt
  have hi1 : (i 1).val < 256 := (i 1).isLt
  have hi2 : (i 2).val < 256 := (i 2).isLt
  have hN : cfg0.N = 64 := N_0
  let t : Fin cfg0.N := ⟨(i 0).val / 8, by rw [hN]; omega⟩
  have ht : t.val = (i 0).val / 8 := rfl
  obtain ⟨-, -, -, e3, e4, e5⟩ := idx_facts t
  refine ⟨t, flush0_1 t, ?_⟩
  rw [mem_blk]
  intro a
  match a with
  | ⟨0, _⟩ => show win0_1.index t (0 : Fin 3) * 8 ≤ (i 0).val ∧ (i 0).val < win0_1.index t (0 : Fin 3) * 8 + 8; rw [e3, ht]; omega
  | ⟨1, _⟩ => show win0_1.index t (1 : Fin 3) * 256 ≤ (i 1).val ∧ (i 1).val < win0_1.index t (1 : Fin 3) * 256 + 256; rw [e4]; omega
  | ⟨2, _⟩ => show win0_1.index t (2 : Fin 3) * 256 ≤ (i 2).val ∧ (i 2).val < win0_1.index t (2 : Fin 3) * 256 + 256; rw [e5]; omega

/-- The output array after the run is `G3` of the flattened input as the region finds it. -/
theorem final (c : Dev nD) : (dats m 0 c).arrAt 1 cfg0.N = G3 (V m c main_v0) :=
  (dats m 0 c).arrAt_eq_of_cover 1 (G3 (V m c main_v0)) (fun t _ => flushed_eq m c t) cover

/-! ## The reshapes around the region -/

/-- The region finds the flattened input: the reshape before it applied to the argument. -/
theorem V_main_v0 (c : Dev nD) :
    (V m c main_v0 : S512x256x256.Idx → Ideal .f32)
      = shapeCast S512x256x256 (m ((c : Thread nD τ).loc main_arg0)) shapeCasts_S8x64x256x256_S512x256x256 := by
  show StableHlo.after hostOps0 (fun b => m (c, b)) (Proc.devRef .tc main_v0) = _
  after_results
  rfl

/-- The program's result: the reshape after the region applied to the output array, which is `G` of the argument. -/
theorem result_eq (c : Dev nD) :
    Pipeline.afterTail₀ cfgs (dats m) 0 (V0 m) [hostOps1] c main_v2 = G (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m c), V_main_v0]
  exact reshape_G _ _ _

/-- Every weakly fair execution of the program terminates with the result at `G` of the argument and the argument
    unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.HaarValue

end
-- ==== Proof.RefRun.lean ====
/-
  The reference program's run, read back. Its @main is a straight line of thirty-nine host operations once its three
  helper functions (the reflect pad and the two flips it calls) are written out at their calls: the reflect pad of the
  last two axes by one row below and one column on the right (each a slice of the second-to-last row or column,
  reversed along an axis of extent one, laid behind the array), then the four shifted windows of the padded array, the
  three signed half-sums, their squares added, and the square root. Every weakly fair execution ends with the result
  buffer at `refVal` of the argument — that chain written as one term — and the argument unchanged. The chain is read
  in two stretches: the pad (eleven operations, ending in the padded array) and what is computed from the padded array.
-/
import proofs.«126351_j23579370455122_1_alg».proof.Proof.Gen.ReferenceIdeal
import Idealize.ShloMosaic.Lib.StableHlo.Run

noncomputable section

namespace Cert.ReferenceIdeal.HaarRun

open Cert.ReferenceIdeal Cert.ReferenceIdeal.Gen Idealize.ShloMosaic Idealize.ShloMosaic.TcCoe Idealize.SL.Sem Idealize.ShloMosaic.StableHlo

variable {F : FTy → Type} [FloatOps F]

/-- The pad: the index constant, then the pad function's ten operations (the two flips' written at their calls). -/
abbrev opsPad : List (HloOp τ sig (Elt F)) :=
  [ nullary main_c (constantI S_ 32 0#32),
    TRef.unary (.of main_arg0 : TRef sig ⟨S8x64x256x256, .f32⟩) main_call0.v0 (extractStridedSlice S8x64x1x256 ![0, 0, 0, 0] · slices_S8x64x256x256_S8x64x1x256_0_0_0_0),
    TRef.unary (.of main_arg0 : TRef sig ⟨S8x64x256x256, .f32⟩) main_call0.v1 (extractStridedSlice S8x64x1x256 ![0, 0, 255, 0] · slices_S8x64x256x256_S8x64x1x256_0_0_255_0),
    TRef.unary (.of main_arg0 : TRef sig ⟨S8x64x256x256, .f32⟩) main_call0.v2 (extractStridedSlice S8x64x1x256 ![0, 0, 254, 0] · slices_S8x64x256x256_S8x64x1x256_0_0_254_0),
    TRef.unary main_call0.v2 main_call0.call0.v0 (Host.reverse [2]),
    TRef.binary (.of main_arg0 : TRef sig ⟨S8x64x256x256, .f32⟩) main_call0.call0.v0 main_call0.v4 (fun a b => concatenate S8x64x257x256 2 [⟨S8x64x256x256, a⟩, ⟨S8x64x1x256, b⟩] concatenates_S8x64x256x256_S8x64x1x256_S8x64x257x256_d2),
    TRef.unary main_call0.v4 main_call0.v5 (extractStridedSlice S8x64x257x1 ![0, 0, 0, 0] · slices_S8x64x257x256_S8x64x257x1_0_0_0_0),
    TRef.unary main_call0.v4 main_call0.v6 (extractStridedSlice S8x64x257x1 ![0, 0, 0, 255] · slices_S8x64x257x256_S8x64x257x1_0_0_0_255),
    TRef.unary main_call0.v4 main_call0.v7 (extractStridedSlice S8x64x257x1 ![0, 0, 0, 254] · slices_S8x64x257x256_S8x64x257x1_0_0_0_254),
    TRef.unary main_call0.v7 main_call0.call1.v0 (Host.reverse [3]),
    TRef.binary main_call0.v4 main_call0.call1.v0 main_call0.v9 (fun a b => concatenate S8x64x257x257 3 [⟨S8x64x257x256, a⟩, ⟨S8x64x257x1, b⟩] concatenates_S8x64x257x256_S8x64x257x1_S8x64x257x257_d3) ]

/-- What is computed from the padded array `main_v0`: four windows, the half-sums, the squares, the root. -/
abbrev opsStencil : List (HloOp τ sig (Elt F)) :=
  [ unary main_v0 main_v1 ((extractStridedSlice S8x64x256x256 ![0, 0, 0, 0] · slices_S8x64x257x257_S8x64x256x256_0_0_0_0) : (⟨S8x64x257x257, .f32⟩ : BufTy).Contents (Elt F) → (⟨S8x64x256x256, .f32⟩ : BufTy).Contents (Elt F)),
    unary main_v0 main_v2 ((extractStridedSlice S8x64x256x256 ![0, 0, 0, 1] · slices_S8x64x257x257_S8x64x256x256_0_0_0_1) : (⟨S8x64x257x257, .f32⟩ : BufTy).Contents (Elt F) → (⟨S8x64x256x256, .f32⟩ : BufTy).Contents (Elt F)),
    unary main_v0 main_v3 ((extractStridedSlice S8x64x256x256 ![0, 0, 1, 0] · slices_S8x64x257x257_S8x64x256x256_0_0_1_0) : (⟨S8x64x257x257, .f32⟩ : BufTy).Contents (Elt F) → (⟨S8x64x256x256, .f32⟩ : BufTy).Contents (Elt F)),
    unary main_v0 main_v4 ((extractStridedSlice S8x64x256x256 ![0, 0, 1, 1] · slices_S8x64x257x257_S8x64x256x256_0_0_1_1) : (⟨S8x64x257x257, .f32⟩ : BufTy).Contents (Elt F) → (⟨S8x64x256x256, .f32⟩ : BufTy).Contents (Elt F)),
    binary main_v1 main_v2 main_v5 (addf : (⟨S8x64x256x256, .f32⟩ : BufTy).Contents (Elt F) → (⟨S8x64x256x256, .f32⟩ : BufTy).Contents (Elt F) → (⟨S8x64x256x256, .f32⟩ : BufTy).Contents (Elt F)),
    binary main_v5 main_v3 main_v6 (subf : (⟨S8x64x256x256, .f32⟩ : BufTy).Contents (Elt F) → (⟨S8x64x256x256, .f32⟩ : BufTy).Contents (Elt F) → (⟨S8x64x256x256, .f32⟩ : BufTy).Contents (Elt F)),
    binary main_v6 main_v4 main_v7 (subf : (⟨S8x64x256x256, .f32⟩ : BufTy).Contents (Elt F) → (⟨S8x64x256x256, .f32⟩ : BufTy).Contents (Elt F) → (⟨S8x64x256x256, .f32⟩ : BufTy).Contents (Elt F)),
    nullary main_cst (constant S_ .f32 0x3F000000#32),
    unary main_cst main_v8 (broadcastInDim S8x64x256x256 ![] bcast_S_S8x64x256x256 : (⟨S_, .f32⟩ : BufTy).Contents (Elt F) → (⟨S8x64x256x256, .f32⟩ : BufTy).Contents (Elt F)),
    binary main_v8 main_v7 main_v9 (mulf : (⟨S8x64x256x256, .f32⟩ : BufTy).Contents (Elt F) → (⟨S8x64x256x256, .f32⟩ : BufTy).Contents (Elt F) → (⟨S8x64x256x256, .f32⟩ : BufTy).Contents (Elt F)),
    binary main_v1 main_v2 main_v10 (subf : (⟨S8x64x256x256, .f32⟩ : BufTy).Contents (Elt F) → (⟨S8x64x256x256, .f32⟩ : BufTy).Contents (Elt F) → (⟨S8x64x256x256, .f32⟩ : BufTy).Contents (Elt F)),
    binary main_v10 main_v3 main_v11 (addf : (⟨S8x64x256x256, .f32⟩ : BufTy).Contents (Elt F) → (⟨S8x64x256x256, .f32⟩ : BufTy).Contents (Elt F) → (⟨S8x64x256x256, .f32⟩ : BufTy).Contents (Elt F)),
    binary main_v11 main_v4 main_v12 (subf : (⟨S8x64x256x256, .f32⟩ : BufTy).Contents (Elt F) → (⟨S8x64x256x256, .f32⟩ : BufTy).Contents (Elt F) → (⟨S8x64x256x256, .f32⟩ : BufTy).Contents (Elt F)),
    nullary main_cst_0 (constant S_ .f32 0x3F000000#32),
    unary main_cst_0 main_v13 (broadcastInDim S8x64x256x256 ![] bcast_S_S8x64x256x256 : (⟨S_, .f32⟩ : BufTy).Contents (Elt F) → (⟨S8x64x256x256, .f32⟩ : BufTy).Contents (Elt F)),
    binary main_v13 main_v12 main_v14 (mulf : (⟨S8x64x256x256, .f32⟩ : BufTy).Contents (Elt F) → (⟨S8x64x256x256, .f32⟩ : BufTy).Contents (Elt F) → (⟨S8x64x256x256, .f32⟩ : BufTy).Contents (Elt F)),
    binary main_v1 main_v2 main_v15 (subf : (⟨S8x64x256x256, .f32⟩ : BufTy).Contents (Elt F) → (⟨S8x64x256x256, .f32⟩ : BufTy).Contents (Elt F) → (⟨S8x64x256x256, .f32⟩ : BufTy).Contents (Elt F)),
    binary main_v15 main_v3 main_v16 (subf : (⟨S8x64x256x256, .f32⟩ : BufTy).Contents (Elt F) → (⟨S8x64x256x256, .f32⟩ : BufTy).Contents (Elt F) → (⟨S8x64x256x256, .f32⟩ : BufTy).Contents (Elt F)),
    binary main_v16 main_v4 main_v17 (addf : (⟨S8x64x256x256, .f32⟩ : BufTy).Contents (Elt F) → (⟨S8x64x256x256, .f32⟩ : BufTy).Contents (Elt F) → (⟨S8x64x256x256, .f32⟩ : BufTy).Contents (Elt F)),
    nullary main_cst_1 (constant S_ .f32 0x3F000000#32),
    unary main_cst_1 main_v18 (broadcastInDim S8x64x256x256 ![] bcast_S_S8x64x256x256 : (⟨S_, .f32⟩ : BufTy).Contents (Elt F) → (⟨S8x64x256x256, .f32⟩ : BufTy).Contents (Elt F)),
    binary main_v18 main_v17 main_v19 (mulf : (⟨S8x64x256x256, .f32⟩ : BufTy).Contents (Elt F) → (⟨S8x64x256x256, .f32⟩ : BufTy).Contents (Elt F) → (⟨S8x64x256x256, .f32⟩ : BufTy).Contents (Elt F)),
    binary main_v9 main_v9 main_v20 (mulf : (⟨S8x64x256x256, .f32⟩ : BufTy).Contents (Elt F) → (⟨S8x64x256x256, .f32⟩ : BufTy).Contents (Elt F) → (⟨S8x64x256x256, .f32⟩ : BufTy).Contents (Elt F)),
    binary main_v14 main_v14 main_v21 (mulf : (⟨S8x64x256x256, .f32⟩ : BufTy).Contents (Elt F) → (⟨S8x64x256x256, .f32⟩ : BufTy).Contents (Elt F) → (⟨S8x64x256x256, .f32⟩ : BufTy).Contents (Elt F)),
    binary main_v20 main_v21 main_v22 (addf : (⟨S8x64x256x256, .f32⟩ : BufTy).Contents (Elt F) → (⟨S8x64x256x256, .f32⟩ : BufTy).Contents (Elt F) → (⟨S8x64x256x256, .f32⟩ : BufTy).Contents (Elt F)),
    binary main_v19 main_v19 main_v23 (mulf : (⟨S8x64x256x256, .f32⟩ : BufTy).Contents (Elt F) → (⟨S8x64x256x256, .f32⟩ : BufTy).Contents (Elt F) → (⟨S8x64x256x256, .f32⟩ : BufTy).Contents (Elt F)),
    binary main_v22 main_v23 main_v24 (addf : (⟨S8x64x256x256, .f32⟩ : BufTy).Contents (Elt F) → (⟨S8x64x256x256, .f32⟩ : BufTy).Contents (Elt F) → (⟨S8x64x256x256, .f32⟩ : BufTy).Contents (Elt F)),
    unary main_v24 main_v25 (Host.sqrt : (⟨S8x64x256x256, .f32⟩ : BufTy).Contents (Elt F) → (⟨S8x64x256x256, .f32⟩ : BufTy).Contents (Elt F)) ]

/-- @main's operations in order. -/
abbrev ops : List (HloOp τ sig (Elt F)) :=
  [ nullary main_c (constantI S_ 32 0#32),
    TRef.unary (.of main_arg0 : TRef sig ⟨S8x64x256x256, .f32⟩) main_call0.v0 (extractStridedSlice S8x64x1x256 ![0, 0, 0, 0] · slices_S8x64x256x256_S8x64x1x256_0_0_0_0),
    TRef.unary (.of main_arg0 : TRef sig ⟨S8x64x256x256, .f32⟩) main_call0.v1 (extractStridedSlice S8x64x1x256 ![0, 0, 255, 0] · slices_S8x64x256x256_S8x64x1x256_0_0_255_0),
    TRef.unary (.of main_arg0 : TRef sig ⟨S8x64x256x256, .f32⟩) main_call0.v2 (extractStridedSlice S8x64x1x256 ![0, 0, 254, 0] · slices_S8x64x256x256_S8x64x1x256_0_0_254_0),
    TRef.unary main_call0.v2 main_call0.call0.v0 (Host.reverse [2]),
    TRef.binary (.of main_arg0 : TRef sig ⟨S8x64x256x256, .f32⟩) main_call0.call0.v0 main_call0.v4 (fun a b => concatenate S8x64x257x256 2 [⟨S8x64x256x256, a⟩, ⟨S8x64x1x256, b⟩] concatenates_S8x64x256x256_S8x64x1x256_S8x64x257x256_d2),
    TRef.unary main_call0.v4 main_call0.v5 (extractStridedSlice S8x64x257x1 ![0, 0, 0, 0] · slices_S8x64x257x256_S8x64x257x1_0_0_0_0),
    TRef.unary main_call0.v4 main_call0.v6 (extractStridedSlice S8x64x257x1 ![0, 0, 0, 255] · slices_S8x64x257x256_S8x64x257x1_0_0_0_255),
    TRef.unary main_call0.v4 main_call0.v7 (extractStridedSlice S8x64x257x1 ![0, 0, 0, 254] · slices_S8x64x257x256_S8x64x257x1_0_0_0_254),
    TRef.unary main_call0.v7 main_call0.call1.v0 (Host.reverse [3]),
    TRef.binary main_call0.v4 main_call0.call1.v0 main_call0.v9 (fun a b => concatenate S8x64x257x257 3 [⟨S8x64x257x256, a⟩, ⟨S8x64x257x1, b⟩] concatenates_S8x64x257x256_S8x64x257x1_S8x64x257x257_d3),
    unary main_v0 main_v1 ((extractStridedSlice S8x64x256x256 ![0, 0, 0, 0] · slices_S8x64x257x257_S8x64x256x256_0_0_0_0) : (⟨S8x64x257x257, .f32⟩ : BufTy).Contents (Elt F) → (⟨S8x64x256x256, .f32⟩ : BufTy).Contents (Elt F)),
    unary main_v0 main_v2 ((extractStridedSlice S8x64x256x256 ![0, 0, 0, 1] · slices_S8x64x257x257_S8x64x256x256_0_0_0_1) : (⟨S8x64x257x257, .f32⟩ : BufTy).Contents (Elt F) → (⟨S8x64x256x256, .f32⟩ : BufTy).Contents (Elt F)),
    unary main_v0 main_v3 ((extractStridedSlice S8x64x256x256 ![0, 0, 1, 0] · slices_S8x64x257x257_S8x64x256x256_0_0_1_0) : (⟨S8x64x257x257, .f32⟩ : BufTy).Contents (Elt F) → (⟨S8x64x256x256, .f32⟩ : BufTy).Contents (Elt F)),
    unary main_v0 main_v4 ((extractStridedSlice S8x64x256x256 ![0, 0, 1, 1] · slices_S8x64x257x257_S8x64x256x256_0_0_1_1) : (⟨S8x64x257x257, .f32⟩ : BufTy).Contents (Elt F) → (⟨S8x64x256x256, .f32⟩ : BufTy).Contents (Elt F)),
    binary main_v1 main_v2 main_v5 (addf : (⟨S8x64x256x256, .f32⟩ : BufTy).Contents (Elt F) → (⟨S8x64x256x256, .f32⟩ : BufTy).Contents (Elt F) → (⟨S8x64x256x256, .f32⟩ : BufTy).Contents (Elt F)),
    binary main_v5 main_v3 main_v6 (subf : (⟨S8x64x256x256, .f32⟩ : BufTy).Contents (Elt F) → (⟨S8x64x256x256, .f32⟩ : BufTy).Contents (Elt F) → (⟨S8x64x256x256, .f32⟩ : BufTy).Contents (Elt F)),
    binary main_v6 main_v4 main_v7 (subf : (⟨S8x64x256x256, .f32⟩ : BufTy).Contents (Elt F) → (⟨S8x64x256x256, .f32⟩ : BufTy).Contents (Elt F) → (⟨S8x64x256x256, .f32⟩ : BufTy).Contents (Elt F)),
    nullary main_cst (constant S_ .f32 0x3F000000#32),
    unary main_cst main_v8 (broadcastInDim S8x64x256x256 ![] bcast_S_S8x64x256x256 : (⟨S_, .f32⟩ : BufTy).Contents (Elt F) → (⟨S8x64x256x256, .f32⟩ : BufTy).Contents (Elt F)),
    binary main_v8 main_v7 main_v9 (mulf : (⟨S8x64x256x256, .f32⟩ : BufTy).Contents (Elt F) → (⟨S8x64x256x256, .f32⟩ : BufTy).Contents (Elt F) → (⟨S8x64x256x256, .f32⟩ : BufTy).Contents (Elt F)),
    binary main_v1 main_v2 main_v10 (subf : (⟨S8x64x256x256, .f32⟩ : BufTy).Contents (Elt F) → (⟨S8x64x256x256, .f32⟩ : BufTy).Contents (Elt F) → (⟨S8x64x256x256, .f32⟩ : BufTy).Contents (Elt F)),
    binary main_v10 main_v3 main_v11 (addf : (⟨S8x64x256x256, .f32⟩ : BufTy).Contents (Elt F) → (⟨S8x64x256x256, .f32⟩ : BufTy).Contents (Elt F) → (⟨S8x64x256x256, .f32⟩ : BufTy).Contents (Elt F)),
    binary main_v11 main_v4 main_v12 (subf : (⟨S8x64x256x256, .f32⟩ : BufTy).Contents (Elt F) → (⟨S8x64x256x256, .f32⟩ : BufTy).Contents (Elt F) → (⟨S8x64x256x256, .f32⟩ : BufTy).Contents (Elt F)),
    nullary main_cst_0 (constant S_ .f32 0x3F000000#32),
    unary main_cst_0 main_v13 (broadcastInDim S8x64x256x256 ![] bcast_S_S8x64x256x256 : (⟨S_, .f32⟩ : BufTy).Contents (Elt F) → (⟨S8x64x256x256, .f32⟩ : BufTy).Contents (Elt F)),
    binary main_v13 main_v12 main_v14 (mulf : (⟨S8x64x256x256, .f32⟩ : BufTy).Contents (Elt F) → (⟨S8x64x256x256, .f32⟩ : BufTy).Contents (Elt F) → (⟨S8x64x256x256, .f32⟩ : BufTy).Contents (Elt F)),
    binary main_v1 main_v2 main_v15 (subf : (⟨S8x64x256x256, .f32⟩ : BufTy).Contents (Elt F) → (⟨S8x64x256x256, .f32⟩ : BufTy).Contents (Elt F) → (⟨S8x64x256x256, .f32⟩ : BufTy).Contents (Elt F)),
    binary main_v15 main_v3 main_v16 (subf : (⟨S8x64x256x256, .f32⟩ : BufTy).Contents (Elt F) → (⟨S8x64x256x256, .f32⟩ : BufTy).Contents (Elt F) → (⟨S8x64x256x256, .f32⟩ : BufTy).Contents (Elt F)),
    binary main_v16 main_v4 main_v17 (addf : (⟨S8x64x256x256, .f32⟩ : BufTy).Contents (Elt F) → (⟨S8x64x256x256, .f32⟩ : BufTy).Contents (Elt F) → (⟨S8x64x256x256, .f32⟩ : BufTy).Contents (Elt F)),
    nullary main_cst_1 (constant S_ .f32 0x3F000000#32),
    unary main_cst_1 main_v18 (broadcastInDim S8x64x256x256 ![] bcast_S_S8x64x256x256 : (⟨S_, .f32⟩ : BufTy).Contents (Elt F) → (⟨S8x64x256x256, .f32⟩ : BufTy).Contents (Elt F)),
    binary main_v18 main_v17 main_v19 (mulf : (⟨S8x64x256x256, .f32⟩ : BufTy).Contents (Elt F) → (⟨S8x64x256x256, .f32⟩ : BufTy).Contents (Elt F) → (⟨S8x64x256x256, .f32⟩ : BufTy).Contents (Elt F)),
    binary main_v9 main_v9 main_v20 (mulf : (⟨S8x64x256x256, .f32⟩ : BufTy).Contents (Elt F) → (⟨S8x64x256x256, .f32⟩ : BufTy).Contents (Elt F) → (⟨S8x64x256x256, .f32⟩ : BufTy).Contents (Elt F)),
    binary main_v14 main_v14 main_v21 (mulf : (⟨S8x64x256x256, .f32⟩ : BufTy).Contents (Elt F) → (⟨S8x64x256x256, .f32⟩ : BufTy).Contents (Elt F) → (⟨S8x64x256x256, .f32⟩ : BufTy).Contents (Elt F)),
    binary main_v20 main_v21 main_v22 (addf : (⟨S8x64x256x256, .f32⟩ : BufTy).Contents (Elt F) → (⟨S8x64x256x256, .f32⟩ : BufTy).Contents (Elt F) → (⟨S8x64x256x256, .f32⟩ : BufTy).Contents (Elt F)),
    binary main_v19 main_v19 main_v23 (mulf : (⟨S8x64x256x256, .f32⟩ : BufTy).Contents (Elt F) → (⟨S8x64x256x256, .f32⟩ : BufTy).Contents (Elt F) → (⟨S8x64x256x256, .f32⟩ : BufTy).Contents (Elt F)),
    binary main_v22 main_v23 main_v24 (addf : (⟨S8x64x256x256, .f32⟩ : BufTy).Contents (Elt F) → (⟨S8x64x256x256, .f32⟩ : BufTy).Contents (Elt F) → (⟨S8x64x256x256, .f32⟩ : BufTy).Contents (Elt F)),
    unary main_v24 main_v25 (Host.sqrt : (⟨S8x64x256x256, .f32⟩ : BufTy).Contents (Elt F) → (⟨S8x64x256x256, .f32⟩ : BufTy).Contents (Elt F)) ]

theorem ops_split : (ops : List (HloOp τ sig (Elt F))) = opsPad ++ opsStencil := rfl

set_option maxRecDepth 2048 in
/-- @main is that straight line: the helper functions unfolded at their calls, sequencing reassociated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., unary_bufs_sub ..⟩

/-- Two stretches of operations one after the other fold as the second over the first's result. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The array with its second-to-last row repeated below the last one. -/
def padRows (x : FVec F S8x64x256x256 .f32) : FVec F S8x64x257x256 .f32 :=
  concatenate S8x64x257x256 2 [⟨S8x64x256x256, x⟩, ⟨S8x64x1x256, Host.reverse [2] (extractStridedSlice S8x64x1x256 ![0, 0, 254, 0] x slices_S8x64x256x256_S8x64x1x256_0_0_254_0)⟩] concatenates_S8x64x256x256_S8x64x1x256_S8x64x257x256_d2

/-- That array with its second-to-last column repeated to the right of the last one. -/
def padCols (y : FVec F S8x64x257x256 .f32) : FVec F S8x64x257x257 .f32 :=
  concatenate S8x64x257x257 3 [⟨S8x64x257x256, y⟩, ⟨S8x64x257x1, Host.reverse [3] (extractStridedSlice S8x64x257x1 ![0, 0, 0, 254] y slices_S8x64x257x256_S8x64x257x1_0_0_0_254)⟩] concatenates_S8x64x257x256_S8x64x257x1_S8x64x257x257_d3

/-- Half of a signed sum of the four windows, as the host writes it: the constant one half broadcast, times the sum. -/
def halfOf (s : FVec F S8x64x256x256 .f32) : FVec F S8x64x256x256 .f32 :=
  mulf (broadcastInDim S8x64x256x256 ![] bcast_S_S8x64x256x256 (constant S_ .f32 0x3F000000#32)) s

/-- The four windows of a padded array combined: the root of the three half-sums' squares added. -/
def stencil (xp : FVec F S8x64x257x257 .f32) : FVec F S8x64x256x256 .f32 :=
  have a : FVec F S8x64x256x256 .f32 := extractStridedSlice S8x64x256x256 ![0, 0, 0, 0] xp slices_S8x64x257x257_S8x64x256x256_0_0_0_0
  have b : FVec F S8x64x256x256 .f32 := extractStridedSlice S8x64x256x256 ![0, 0, 0, 1] xp slices_S8x64x257x257_S8x64x256x256_0_0_0_1
  have c : FVec F S8x64x256x256 .f32 := extractStridedSlice S8x64x256x256 ![0, 0, 1, 0] xp slices_S8x64x257x257_S8x64x256x256_0_0_1_0
  have d : FVec F S8x64x256x256 .f32 := extractStridedSlice S8x64x256x256 ![0, 0, 1, 1] xp slices_S8x64x257x257_S8x64x256x256_0_0_1_1
  have hl : FVec F S8x64x256x256 .f32 := halfOf (subf (subf (addf a b) c) d)
  have lh : FVec F S8x64x256x256 .f32 := halfOf (subf (addf (subf a b) c) d)
  have hh : FVec F S8x64x256x256 .f32 := halfOf (addf (subf (subf a b) c) d)
  Host.sqrt (addf (addf (mulf hl hl) (mulf lh lh)) (mulf hh hh))

/-- The reference's result as one term of its argument. -/
def refVal (x : FVec F S8x64x256x256 .f32) : FVec F S8x64x256x256 .f32 := stencil (padCols (padRows x))

/-- After the pad's operations the padded buffer holds the argument padded by a row and a column, -/
theorem pad_out (V : Valuation τ sig (Elt F)) :
    after opsPad V (main_v0 : DevRef τ sig) = padCols (padRows (V (main_arg0 : DevRef τ sig))) := by
  after_results
  rfl

/-- and the argument is as it was. -/
theorem pad_arg (V : Valuation τ sig (Elt F)) :
    after opsPad V (main_arg0 : DevRef τ sig) = V (main_arg0 : DevRef τ sig) := by
  after_results

/-- After the remaining operations the result buffer holds the stencil of the padded buffer's contents, -/
theorem stencil_out (W : Valuation τ sig (Elt F)) :
    after opsStencil W (main_v25 : DevRef τ sig) = stencil (W (main_v0 : DevRef τ sig)) := by
  after_results_simp
  rfl

/-- and the argument is as it was. -/
theorem stencil_arg (W : Valuation τ sig (Elt F)) :
    after opsStencil W (main_arg0 : DevRef τ sig) = W (main_arg0 : DevRef τ sig) := by
  after_results_simp

/-- The fold of all the operations at the result buffer is `refVal` of the argument's contents. -/
theorem out_eq (V : Valuation τ sig (Elt F)) :
    after ops V (main_v25 : DevRef τ sig) = refVal (V (main_arg0 : DevRef τ sig)) := by
  rw [ops_split, after_append, stencil_out, pad_out]
  rfl

/-- No operation writes the argument. -/
theorem arg_eq (V : Valuation τ sig (Elt F)) :
    after ops V (main_arg0 : DevRef τ sig) = V (main_arg0 : DevRef τ sig) := by
  rw [ops_split, after_append, stencil_arg, pad_arg]

/-- On every device, from any memory with zero counters: every weakly fair execution of @main terminates with the
    result at `refVal` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refVal (m ((c.tc : Thread nD τ).loc main_arg0))
      ∧ r.2.mem ((c.tc : Thread nD τ).loc main_arg0) = m ((c.tc : Thread nD τ).loc main_arg0) :=
  (θ_run defs _ _).mono (fun _ h c => ⟨(h c main_v25).trans (out_eq _), (h c main_arg0).trans (arg_eq _)⟩)
    (run_seq scopedRefs_eq scopedSems_eq defs main (fun _ => ops) main_eq (fun _ => ops_sub) m ρ)

end Cert.ReferenceIdeal.HaarRun

end
-- ==== Proof.RefValue.lean ====
/-
  The reference's result is `G` of its argument. Its padded array (row 254 of every plane laid below row 255, then
  column 254 laid to the right of column 255, each through a reversal along an axis of extent one, which changes
  nothing) reads at row `h`, column `w` of 257 the argument at the folded row and column; the four windows of the
  padded array at `(h, w)` are therefore the argument at `(h, w)`, `(h, w+1)`, `(h+1, w)`, `(h+1, w+1)` with the
  successors reflected; and the host's half-sums, squares, sum and root at one index are the scalar formula `edge`.
-/
import proofs.«126351_j23579370455122_1_alg».proof.Proof.RefRun
import proofs.«126351_j23579370455122_1_alg».proof.Proof.Spec

noncomputable section

open Idealize.ShloMosaic Idealize.ShloMosaic.ValueIdx

namespace Cert.ReferenceIdeal.HaarValue

open Cert.ReferenceIdeal Cert.ReferenceIdeal.Gen Cert.ReferenceIdeal.HaarRun Cert.Haar

/-- The padded array at row `h`, column `w` of 257 reads the argument at the folded row and column. -/
theorem padded_apply (x : FVec Ideal S8x64x256x256 .f32) (b : Fin 8) (c : Fin 64) (h w : Fin 257) :
    padCols (padRows x) (ix4 b c h w) = x (ix4 b c (fold h) (fold w)) := by
  unfold padCols
  refine (padCols4_apply _ _ _ b c h w).trans ?_
  unfold padRows
  exact padRows4_apply _ _ _ b c h (fold w)

/-- The stencil at an index, over its four windows. -/
theorem stencil_windows (xp : FVec Ideal S8x64x257x257 .f32) (i : S8x64x256x256.Idx) :
    stencil xp i = edge (extractStridedSlice S8x64x256x256 ![0, 0, 0, 0] xp slices_S8x64x257x257_S8x64x256x256_0_0_0_0 i)
      (extractStridedSlice S8x64x256x256 ![0, 0, 0, 1] xp slices_S8x64x257x257_S8x64x256x256_0_0_0_1 i)
      (extractStridedSlice S8x64x256x256 ![0, 0, 1, 0] xp slices_S8x64x257x257_S8x64x256x256_0_0_1_0 i)
      (extractStridedSlice S8x64x256x256 ![0, 0, 1, 1] xp slices_S8x64x257x257_S8x64x256x256_0_0_1_1 i) := rfl

/-- The stencil at batch `b`, channel `c`, row `h`, column `w`: the padded array at the four neighbouring positions. -/
theorem stencil_apply (xp : FVec Ideal S8x64x257x257 .f32) (b : Fin 8) (c : Fin 64) (h w : Fin 256) :
    stencil xp (ix4 b c h w) = edge (xp (ix4 b c h.castSucc w.castSucc)) (xp (ix4 b c h.castSucc w.succ))
      (xp (ix4 b c h.succ w.castSucc)) (xp (ix4 b c h.succ w.succ)) := by
  rw [stencil_windows,
    extractStridedSlice_apply ![0, 0, 0, 0] xp _ (ix4 b c h w) (ix4 b c h.castSucc w.castSucc)
      (fun a => by fin_cases a <;> first | rfl | exact (Nat.zero_add _).symm | exact Nat.add_comm _ 1),
    extractStridedSlice_apply ![0, 0, 0, 1] xp _ (ix4 b c h w) (ix4 b c h.castSucc w.succ)
      (fun a => by fin_cases a <;> first | rfl | exact (Nat.zero_add _).symm | exact Nat.add_comm _ 1),
    extractStridedSlice_apply ![0, 0, 1, 0] xp _ (ix4 b c h w) (ix4 b c h.succ w.castSucc)
      (fun a => by fin_cases a <;> first | rfl | exact (Nat.zero_add _).symm | exact Nat.add_comm _ 1),
    extractStridedSlice_apply ![0, 0, 1, 1] xp _ (ix4 b c h w) (ix4 b c h.succ w.succ)
      (fun a => by fin_cases a <;> first | rfl | exact (Nat.zero_add _).symm | exact Nat.add_comm _ 1)]

/-- The reference's term is `G` of its argument. -/
theorem refVal_eq (x : FVec Ideal S8x64x256x256 .f32) : refVal x = G x := by
  funext i
  obtain ⟨b, c, h, w, rfl⟩ : ∃ (b : Fin 8) (c : Fin 64) (h w : Fin 256), i = ix4 b c h w := ⟨i 0, i 1, i 2, i 3, eq_ix4 i⟩
  unfold refVal
  rw [stencil_apply, padded_apply, padded_apply, padded_apply, padded_apply, fold_castSucc, fold_castSucc, G_apply]
  rfl

end Cert.ReferenceIdeal.HaarValue

end
-- ==== Proof.lean ====
/-
  The certificate's five claims. Both programs compute, on every 256 x 256 plane of the input continued one step past
  its last row and column by reflection, the edge magnitude sqrt(hl^2 + lh^2 + hh^2) of the three signed half-sums of
  each 2 x 2 neighbourhood: the function `G` of Proof/Spec.lean. The kernel's program does it on the input with batch
  and channel merged, eight planes to a grid point (Proof/KernelValue.lean: its result array ends at `G` of the
  argument); the reference pads the whole array and combines four shifted windows (Proof/RefRun.lean: its run read back;
  Proof/RefValue.lean: its term is `G`). The two perform the same operations in the same order on the same entries, so
  the results agree on all extended reals and the precondition is not used. The word-level kernel's frame and the
  idealized kernel's are the generated ones; the reference's frame is its run with the result dropped; the
  idealization rewrote no operation, so there is nothing to preserve.
-/
import proofs.«126351_j23579370455122_1_alg».proof.Defs
import proofs.«126351_j23579370455122_1_alg».proof.Proof.Gen.Kernel
import proofs.«126351_j23579370455122_1_alg».proof.Proof.Gen.Kernel.Skeleton
import proofs.«126351_j23579370455122_1_alg».proof.Proof.Gen.Kernel.Launch
import proofs.«126351_j23579370455122_1_alg».proof.Proof.Gen.Kernel.Points
import proofs.«126351_j23579370455122_1_alg».proof.Proof.Gen.Kernel.Frame
import proofs.«126351_j23579370455122_1_alg».proof.Proof.Gen.KernelIdeal
import proofs.«126351_j23579370455122_1_alg».proof.Proof.Gen.KernelIdeal.Skeleton
import proofs.«126351_j23579370455122_1_alg».proof.Proof.Gen.KernelIdeal.Launch
import proofs.«126351_j23579370455122_1_alg».proof.Proof.Gen.KernelIdeal.Points
import proofs.«126351_j23579370455122_1_alg».proof.Proof.Gen.KernelIdeal.Frame
import proofs.«126351_j23579370455122_1_alg».proof.Proof.Gen.ReferenceIdeal
import proofs.«126351_j23579370455122_1_alg».proof.Proof.Gen.Pre_finite_inputs
import proofs.«126351_j23579370455122_1_alg».proof.Proof.KernelValue
import proofs.«126351_j23579370455122_1_alg».proof.Proof.RefRun
import proofs.«126351_j23579370455122_1_alg».proof.Proof.RefValue
import Idealize.ShloMosaic.Adequacy
import Idealize.ShloMosaic.Init

noncomputable section

namespace Cert.Proof

open Idealize.ShloMosaic Idealize.SL.Sem

/-- The word-level kernel runs and leaves its argument as it was. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument as it was: its run, the result dropped. -/
theorem frame_ri : Cert.frame_ReferenceIdeal := fun m ρ _ =>
  (θ_run Cert.ReferenceIdeal.defs _ _).mono (fun _ h c => (h c).2) (Cert.ReferenceIdeal.HaarRun.run (F := Ideal) m ρ)

/-- From memories that agree on the argument, the idealized kernel ends at `G` of its argument and the reference at
    `refVal` of its own, which is `G` of the same array. -/
theorem algebraic : Cert.algebraic_KernelIdeal_ReferenceIdeal := by
  intro m ρ m' ρ' _ hagree
  refine ⟨fun c => Cert.Haar.G (m ((c.tc : Thread Cert.KernelIdeal.nD Cert.KernelIdeal.τ).loc Cert.KernelIdeal.main_arg0)),
    Cert.KernelIdeal.HaarValue.run m ρ, ?_⟩
  refine (θ_run Cert.ReferenceIdeal.defs _ _).mono (fun _ h c => ⟨(h c).1.trans ?_, (h c).2⟩)
    (Cert.ReferenceIdeal.HaarRun.run (F := Ideal) m' ρ')
  rw [hagree c]
  exact Cert.ReferenceIdeal.HaarValue.refVal_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
